-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x512x512x1 : Shape := ⟨4, ![8, 512, 512, 1]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel

variable [Facts]

def fn {F : FTy → Type} [FloatOps F] (main_arg0 : FVec F S8x1024x128 .f32) (main_arg1 : IVec S8x512x512x1 32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  main_v3
-- ==== Kernel.lean ====
abbrev S8x1024x128 : Shape := ⟨3, ![8, 1024, 128]⟩
abbrev S8x512x512x1 : Shape := ⟨4, ![8, 512, 512, 1]⟩
abbrev S8x512x512 : Shape := ⟨3, ![8, 512, 512]⟩
abbrev S_ : Shape := ⟨0, ![]⟩
abbrev S8x262144x1 : Shape := ⟨3, ![8, 262144, 1]⟩
abbrev S8x262144x128 : Shape := ⟨3, ![8, 262144, 128]⟩
abbrev S1x1024x128 : Shape := ⟨3, ![1, 1024, 128]⟩
abbrev S1x4096x1 : Shape := ⟨3, ![1, 4096, 1]⟩
abbrev S1x4096x128 : Shape := ⟨3, ![1, 4096, 128]⟩
abbrev S4096x1 : Shape := ⟨2, ![4096, 1]⟩
abbrev S4096x1024 : Shape := ⟨2, ![4096, 1024]⟩
abbrev S1024x128 : Shape := ⟨2, ![1024, 128]⟩
abbrev S4096x128 : Shape := ⟨2, ![4096, 128]⟩
abbrev S8x512x512x128 : Shape := ⟨4, ![8, 512, 512, 128]⟩

abbrev nBuf : Space → Nat
  | .hbm => 27
  | .vmem => 8
  | .smem => 0
  | _ => 0

abbrev bufTy : (tb : Table) → Fin (tcTables nBuf tb) → BufTy
  | .hbm, ⟨0, _⟩ => ⟨S8x1024x128, .f32⟩
  | .hbm, ⟨1, _⟩ => ⟨S8x512x512x1, .i32⟩
  | .hbm, ⟨2, _⟩ => ⟨S8x512x512, .i32⟩
  | .hbm, ⟨3, _⟩ => ⟨S_, .i32⟩
  | .hbm, ⟨4, _⟩ => ⟨S8x512x512, .i32⟩
  | .hbm, ⟨5, _⟩ => ⟨S8x512x512, .i32⟩
  | .hbm, ⟨6, _⟩ => ⟨S_, .i32⟩
  | .hbm, ⟨7, _⟩ => ⟨S8x512x512, .i32⟩
  | .hbm, ⟨8, _⟩ => ⟨S8x512x512, .i1⟩
  | .hbm, ⟨9, _⟩ => ⟨S_, .i32⟩
  | .hbm, ⟨10, _⟩ => ⟨S8x512x512, .i32⟩
  | .hbm, ⟨11, _⟩ => ⟨S8x512x512, .i1⟩
  | .hbm, ⟨12, _⟩ => ⟨S8x512x512, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8x512x512, .i32⟩
  | .hbm, ⟨17, _⟩ => ⟨S8x512x512, .i32⟩
  | .hbm, ⟨18, _⟩ => ⟨S_, .i32⟩
  | .hbm, ⟨19, _⟩ => ⟨S8x512x512, .i32⟩
  | .hbm, ⟨20, _⟩ => ⟨S8x512x512, .i32⟩
  | .hbm, ⟨21, _⟩ => ⟨S8x262144x1, .i32⟩
  | .hbm, ⟨22, _⟩ => ⟨S8x262144x1, .i1⟩
  | .hbm, ⟨23, _⟩ => ⟨S8x262144x1, .bf16⟩
  | .hbm, ⟨24, _⟩ => ⟨S8x1024x128, .bf16⟩
  | .hbm, ⟨25, _⟩ => ⟨S8x262144x128, .f32⟩
  | .hbm, ⟨26, _⟩ => ⟨S8x512x512x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x1, .i32⟩
  | .local _ .vmem, ⟨3, _⟩ => ⟨S1x4096x1, .i32⟩
  | .local _ .vmem, ⟨4, _⟩ => ⟨S1x4096x1, .bf16⟩
  | .local _ .vmem, ⟨5, _⟩ => ⟨S1x4096x1, .bf16⟩
  | .local _ .vmem, ⟨6, _⟩ => ⟨S1x4096x128, .f32⟩
  | .local _ .vmem, ⟨7, _⟩ => ⟨S1x4096x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x512x1_S8x512x512 : S8x512x512x1.ShapeCasts S8x512x512
  bcast_S_S8x512x512 : S_.BroadcastsInDim S8x512x512 (![] : Fin 0 → Fin S8x512x512.rank)
  shapeCasts_S8x512x512_S8x262144x1 : S8x512x512.ShapeCasts S8x262144x1
  bitsLt_bf16_f32 : FTy.bits .bf16 < FTy.bits .f32
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  iota_S4096x1024_d1_w32 : S4096x1024.Iotas .tc 32 [1]
  broadcasts_S4096x1_S4096x1024 : S4096x1.Broadcasts S4096x1024
  natLt_1_32 : 1 < 32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S8x262144x128_S8x512x512x128 : S8x262144x128.ShapeCasts S8x512x512x128
  dot_S4096x1024_S1024x128_S4096x128_1_0_0_1_n_n_wf : DotDims.WF S4096x1024 S1024x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .bf16 = 32 ∨ (Rect.block (s := S8x1024x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S8x262144x1.size a
  hwx0_1 : ∀ i : grid0.Coords, EltTy.bits .i32 = 32 ∨ (Rect.block (s := S8x262144x1) S1x4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S8x262144x1.size a
  hwx0_2 : ∀ i : grid0.Coords, EltTy.bits .bf16 = 32 ∨ (Rect.block (s := S8x262144x1) S1x4096x1.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S8x262144x128.size a
  hwx0_3 : ∀ i : grid0.Coords, EltTy.bits .f32 = 32 ∨ (Rect.block (s := S8x262144x128) S1x4096x128.size (cc0_transform_3 i) (hinb0_3 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

abbrev win0_0 : Pipeline.Window sig grid0 :=
  Pipeline.Window.ofSpec (Memref.whole main_v12) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x512x512x1 : Shape := ⟨4, ![8, 512, 512, 1]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S8x512x512x2 : Shape := ⟨4, ![8, 512, 512, 2]⟩
abbrev S8x512x512x128 : Shape := ⟨4, ![8, 512, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x512x512x1, .i32⟩
  | .hbm, ⟨2, _⟩ => ⟨S8x512x512, .i32⟩
  | .hbm, ⟨3, _⟩ => ⟨S_, .i32⟩
  | .hbm, ⟨4, _⟩ => ⟨S8x512x512, .i32⟩
  | .hbm, ⟨5, _⟩ => ⟨S8x512x512, .i32⟩
  | .hbm, ⟨6, _⟩ => ⟨S_, .i32⟩
  | .hbm, ⟨7, _⟩ => ⟨S8x512x512, .i32⟩
  | .hbm, ⟨8, _⟩ => ⟨S8x512x512, .i1⟩
  | .hbm, ⟨9, _⟩ => ⟨S_, .i32⟩
  | .hbm, ⟨10, _⟩ => ⟨S8x512x512, .i32⟩
  | .hbm, ⟨11, _⟩ => ⟨S8x512x512, .i1⟩
  | .hbm, ⟨12, _⟩ => ⟨S8x512x512, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8x512x512, .i32⟩
  | .hbm, ⟨17, _⟩ => ⟨S8x512x512, .i32⟩
  | .hbm, ⟨18, _⟩ => ⟨S_, .i32⟩
  | .hbm, ⟨19, _⟩ => ⟨S8x512x512, .i32⟩
  | .hbm, ⟨20, _⟩ => ⟨S8x512x512, .i32⟩
  | .hbm, ⟨21, _⟩ => ⟨S8, .i32⟩
  | .hbm, ⟨22, _⟩ => ⟨S8x1x1, .i32⟩
  | .hbm, ⟨23, _⟩ => ⟨S_, .i32⟩
  | .hbm, ⟨24, _⟩ => ⟨S8x1x1, .i32⟩
  | .hbm, ⟨25, _⟩ => ⟨S8x1x1, .i1⟩
  | .hbm, ⟨26, _⟩ => ⟨S_, .i32⟩
  | .hbm, ⟨27, _⟩ => ⟨S8x1x1, .i32⟩
  | .hbm, ⟨28, _⟩ => ⟨S8x1x1, .i32⟩
  | .hbm, ⟨29, _⟩ => ⟨S8x1x1, .i32⟩
  | .hbm, ⟨30, _⟩ => ⟨S_, .i32⟩
  | .hbm, ⟨31, _⟩ => ⟨S8x512x512, .i32⟩
  | .hbm, ⟨32, _⟩ => ⟨S8x512x512, .i1⟩
  | .hbm, ⟨33, _⟩ => ⟨S_, .i32⟩
  | .hbm, ⟨34, _⟩ => ⟨S8x512x512, .i32⟩
  | .hbm, ⟨35, _⟩ => ⟨S8x512x512, .i32⟩
  | .hbm, ⟨36, _⟩ => ⟨S8x512x512, .i32⟩
  | .hbm, ⟨37, _⟩ => ⟨S8x512x512, .i32⟩
  | .hbm, ⟨38, _⟩ => ⟨S8x512x512x1, .i32⟩
  | .hbm, ⟨39, _⟩ => ⟨S8x512x512x1, .i32⟩
  | .hbm, ⟨40, _⟩ => ⟨S8x512x512x2, .i32⟩
  | .hbm, ⟨41, _⟩ => ⟨S8x512x512x128, .f32⟩
  | .hbm, ⟨42, _⟩ => ⟨S8x512x512x1, .i1⟩
  | .hbm, ⟨43, _⟩ => ⟨S_, .f32⟩
  | .hbm, ⟨44, _⟩ => ⟨S8x512x512x128, .i1⟩
  | .hbm, ⟨45, _⟩ => ⟨S8x512x512x128, .f32⟩
  | .hbm, ⟨46, _⟩ => ⟨S8x512x512x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  shapeCasts_S8x512x512x1_S8x512x512 : S8x512x512x1.ShapeCasts S8x512x512
  bcast_S_S8x512x512 : S_.BroadcastsInDim S8x512x512 (![] : Fin 0 → Fin S8x512x512.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x2_d3 : Shape.Concatenates [S8x512x512x1, S8x512x512x1] S8x512x512x2 3
  bcast_S8x512x512x1_S8x512x512x128_0_1_2_3 : S8x512x512x1.BroadcastsInDim S8x512x512x128 (![0, 1, 2, 3] : Fin 4 → Fin S8x512x512x128.rank)
  bcast_S_S8x512x512x128 : S_.BroadcastsInDim S8x512x512x128 (![] : Fin 0 → Fin S8x512x512x128.rank)
  gather_S8x1024x128_S8x512x512x2_S8x512x512x128_3_01_n_n_01_3_11128_wf : GatherDims.WF S8x1024x128 S8x512x512x2 S8x512x512x128 [3] [0, 1] [] [0, 1] [] 3 ![1, 1, 128]

variable [Facts₀]

def gather_S8x1024x128_S8x512x512x2_S8x512x512x128_3_01_n_n_01_3_11128 : GatherDims S8x1024x128 S8x512x512x2 S8x512x512x128 where
  offsetDims := [3]
  collapsedSliceDims := [0, 1]
  operandBatchingDims := []
  startIndicesBatchingDims := []
  startIndexMap := [0, 1]
  indexVectorDim := 3
  sliceSizes := ![1, 1, 128]
  wf := gather_S8x1024x128_S8x512x512x2_S8x512x512x128_3_01_n_n_01_3_11128_wf

class Facts : Prop extends Facts₀ where

variable [Facts]
-- ==== Proof.Labels.lean ====
/-
  The segment label of a pixel, as a 32-bit word.

  A pixel carries a one-based label `s`. Both programs first form the zero-based label `s - 1` (wrapping), test
  whether it lies in the table, `0 ≤ s - 1 < 1024` (signed), and clip it into the table, `min 1023 (max 0 (s - 1))`
  (signed). Everything the two programs do afterwards depends on the label only through that test bit and that
  clipped word. The one arithmetic fact needed about them is that the clipped word is always one of the words
  `0, 1, …, 1023`, whatever `s` is: it names a row of the table.
-/
import Idealize.ShloMosaic.PureOps
import Idealize.ShloMosaic.Lib.StableHlo.Predicate

namespace Cert.Lookup

open Idealize.ShloMosaic

/-- The zero-based label (two's-complement subtraction: it wraps). -/
def zeroBased (s : BitVec 32) : BitVec 32 := IntOp.subi s 1#32

/-- The bit saying that the zero-based label is a row of the table: `0 ≤ s - 1` and `s - 1 < 1024`, signed. -/
def inTable (s : BitVec 32) : BitVec 1 :=
  IntOp.andi (IntOp.cmpi .sge (zeroBased s) 0#32) (IntOp.cmpi .slt (zeroBased s) 1024#32)

/-- The zero-based label clipped into the table: `min 1023 (max 0 (s - 1))`, signed. -/
def clipped (s : BitVec 32) : BitVec 32 := IntOp.minsi 1023#32 (IntOp.maxsi 0#32 (zeroBased s))

/-- A word whose signed value lies in `[0, 1023]` is the word of that number. -/
theorem eq_ofNat_of_toInt_range (x : BitVec 32) (h0 : 0 ≤ x.toInt) (h1 : x.toInt ≤ 1023) :
    ∃ k : Fin 1024, x = BitVec.ofNat 32 k.val := by
  have hx : x.toNat < 2 ^ 32 := x.isLt
  have hn : x.toNat ≤ 1023 := by
    rw [BitVec.toInt_eq_toNat_cond] at h0 h1
    split at h0 <;> omega
  refine ⟨⟨x.toNat, by omega⟩, BitVec.eq_of_toNat_eq ?_⟩
  rw [BitVec.toNat_ofNat]
  exact (Nat.mod_eq_of_lt hx).symm

/-- THE CLIPPED LABEL IS A ROW: for every label the clipped word is the word of some `k < 1024`. -/
theorem clipped_eq_ofNat (s : BitVec 32) : ∃ k : Fin 1024, clipped s = BitVec.ofNat 32 k.val := by
  unfold clipped IntOp.minsi IntOp.maxsi
  have c0 : (0#32 : BitVec 32).toInt = 0 := by decide
  have c1 : (1023#32 : BitVec 32).toInt = 1023 := by decide
  by_cases hneg : (zeroBased s).slt 0#32
  · -- a negative zero-based label is clipped to row 0
    rw [if_pos hneg]
    have : ¬ ((1023#32 : BitVec 32).slt 0#32) := by decide
    rw [if_neg this]
    exact ⟨⟨0, by decide⟩, rfl⟩
  · rw [if_neg hneg]
    have h0 : 0 ≤ (zeroBased s).toInt := by
      simp only [BitVec.slt, c0, decide_eq_true_eq, not_lt] at hneg; exact hneg
    by_cases hbig : (1023#32 : BitVec 32).slt (zeroBased s)
    · -- a label past the table is clipped to the last row
      rw [if_pos hbig]
      exact ⟨⟨1023, by decide⟩, rfl⟩
    · rw [if_neg hbig]
      have h1 : (zeroBased s).toInt ≤ 1023 := by
        simp only [BitVec.slt, c1, decide_eq_true_eq, not_lt] at hbig; exact hbig
      exact eq_ofNat_of_toInt_range _ h0 h1

/-- The row of the table a label names: the clipped word read as a signed number and kept inside `[0, 1023]` (the
    second clipping changes nothing, by `clipped_eq_ofNat`; it makes the definition total without a proof inside). -/
def rowOf (s : BitVec 32) : Fin 1024 := ⟨min (clipped s).toInt.toNat 1023, by omega⟩

/-- The signed value of the word of a row number is the number. -/
theorem toInt_ofNat_row (k : Fin 1024) : (BitVec.ofNat 32 k.val).toInt = (k.val : Int) :=
  StableHlo.Predicate.toInt_ofNat_small k.val (by have := k.isLt; omega)

/-- The clipped word is the word of `rowOf`. -/
theorem clipped_eq_rowOf (s : BitVec 32) : clipped s = BitVec.ofNat 32 (rowOf s).val := by
  obtain ⟨k, hk⟩ := clipped_eq_ofNat s
  have hr : (rowOf s).val = k.val := by
    show min (clipped s).toInt.toNat 1023 = k.val
    rw [hk, toInt_ofNat_row]
    have := k.isLt
    omega
  rw [hr]; exact hk

/-- The signed value of the clipped word is the row number. -/
theorem toInt_clipped (s : BitVec 32) : (clipped s).toInt = ((rowOf s).val : Int) := by
  rw [clipped_eq_rowOf s]
  exact toInt_ofNat_row _

/-- Two row numbers give the same word only if they are the same row. -/
theorem ofNat_row_inj (a b : Fin 1024) (h : BitVec.ofNat 32 a.val = BitVec.ofNat 32 b.val) : a = b := by
  have := congrArg BitVec.toInt h
  rw [toInt_ofNat_row, toInt_ofNat_row] at this
  exact Fin.ext (by exact_mod_cast this)

/-- THE ONE-HOT TEST: the word of row `n` equals the clipped label exactly when `n` is the label's row. -/
theorem cmpi_eq_clipped (n : Fin 1024) (s : BitVec 32) :
    IntOp.cmpi .eq (BitVec.ofNat 32 n.val) (clipped s) = if n = rowOf s then 1#1 else 0#1 := by
  by_cases h : n = rowOf s
  · rw [if_pos h, StableHlo.Predicate.cmpi_eq_iff, h]; exact (clipped_eq_rowOf s).symm
  · rw [if_neg h]
    rcases BitVec.eq_zero_or_eq_one (IntOp.cmpi .eq (BitVec.ofNat 32 n.val) (clipped s)) with h0 | h1
    · exact h0
    · rw [StableHlo.Predicate.cmpi_eq_iff, clipped_eq_rowOf s] at h1
      exact absurd (ofNat_row_inj _ _ h1) h

/-- A clipped label is never negative, so jnp's wrap of a negative index (`i < 0 ? i + 1024 : i`) leaves it alone. -/
theorem wrap_clipped (s : BitVec 32) :
    Scalar.select (IntOp.cmpi .slt (clipped s) 0#32) (IntOp.addi (clipped s) 1024#32) (clipped s) = clipped s := by
  have hnot : IntOp.cmpi .slt (clipped s) 0#32 ≠ 1#1 := by
    intro h
    have c0 : (0#32 : BitVec 32).toInt = 0 := by decide
    simp only [IntOp.cmpi, StableHlo.Predicate.ofBool_eq_one_iff, BitVec.slt, toInt_clipped, c0, decide_eq_true_eq] at h
    omega
  exact if_neg hnot

/-- The same for a batch number `b < 8` taken from an iota. -/
theorem wrap_batch (b : Fin 8) :
    Scalar.select (IntOp.cmpi .slt (BitVec.ofNat 32 b.val) 0#32) (IntOp.addi (BitVec.ofNat 32 b.val) 8#32) (BitVec.ofNat 32 b.val)
      = BitVec.ofNat 32 b.val := by
  revert b; decide

end Cert.Lookup
-- ==== Proof.Lookup.lean ====
/-
  The result both programs compute, as ONE function of the two argument arrays, and the law that joins them.

  `feat` is a table of 8 × 1024 rows of 128 channels; `slic` gives every pixel `(b, h, w)` of 8 images of 512 × 512 a
  one-based label. The result at `(b, h, w, c)` is the channel `c` of row `rowOf label` of image `b`'s table when the
  label names a row of the table, and `0` otherwise.

  One program reads the row directly (a gather, then a select on the test bit). The other multiplies the table by a
  one-hot row: `∑ n, ([n = row] · bit) · feat[b, n, c]`. On the extended reals `0 · x = 0` for EVERY `x` (also an
  infinite one) and `1 · x = x`, so all terms of that sum but the row's vanish and the row's is `bit · feat[b, row, c]`,
  which is the select. No finiteness of the table is needed for this.
-/
import Idealize.ShloMosaic.PureOps.Ideal
import Idealize.ShloMosaic.Lib.ValueIdx
import proofs.«412168_j48447231099243_1_alg».proof.Proof.Labels

noncomputable section

open scoped BigOperators

namespace Cert.Lookup

open Idealize.ShloMosaic Idealize.ShloMosaic.ValueIdx

/-- The feature tables: image, row, channel. -/
abbrev Table : Shape := ⟨3, ![8, 1024, 128]⟩
/-- The label images: image, pixel row, pixel column, and a unit axis. -/
abbrev Pixels : Shape := ⟨4, ![8, 512, 512, 1]⟩
/-- The result: image, pixel row, pixel column, channel. -/
abbrev Image : Shape := ⟨4, ![8, 512, 512, 128]⟩
/-- The result with the pixels of an image in one row-major axis of 512 · 512 = 262144. -/
abbrev Flat : Shape := ⟨3, ![8, 262144, 128]⟩

/-- The label of pixel `(b, h, w)`. -/
def labelAt (slic : IVec Pixels 32) (b : Fin 8) (h w : Fin 512) : BitVec 32 := slic (ix4 b h w 0)

/-- THE RESULT: channel `c` of the row the pixel's label names, or `0` when the label names no row. -/
def lookup (feat : FVec Ideal Table .f32) (slic : IVec Pixels 32) : FVec Ideal Image .f32 := fun i =>
  Scalar.select (inTable (labelAt slic (i 0) (i 1) (i 2)))
    (feat (ix3 (i 0) (rowOf (labelAt slic (i 0) (i 1) (i 2))) (i 3))) (0 : EReal)

/-- Pixel number `q` of an image, row-major, is pixel `(q / 512, q % 512)`. -/
def pixRow (q : Fin 262144) : Fin 512 := ⟨q.val / 512, by have := q.isLt; omega⟩
def pixCol (q : Fin 262144) : Fin 512 := ⟨q.val % 512, by omega⟩

/-- The result with each image's pixels flattened. -/
def flatLookup (feat : FVec Ideal Table .f32) (slic : IVec Pixels 32) : FVec Ideal Flat .f32 := fun j =>
  lookup feat slic (ix4 (j 0) (pixRow (j 1)) (pixCol (j 1)) (j 2))

/-! ## A bit as a factor -/

/-- A widened equality bit, converted to a float, is `1` or `0`. -/
theorem sitofp_widened_bit (p : Prop) [Decidable p] :
    (FloatOps.sitofp (F := Ideal) .f32 ((if p then 1#1 else 0#1 : BitVec 1).setWidth 32) : EReal) = if p then 1 else 0 := by
  by_cases h : p
  · rw [if_pos h, if_pos h]
    show (((1#1 : BitVec 1).setWidth 32).toInt : ℝ) = (1 : EReal)
    have : ((1#1 : BitVec 1).setWidth 32).toInt = 1 := by decide
    rw [this]; norm_num
  · rw [if_neg h, if_neg h]
    show (((0#1 : BitVec 1).setWidth 32).toInt : ℝ) = (0 : EReal)
    have : ((0#1 : BitVec 1).setWidth 32).toInt = 0 := by decide
    rw [this]; norm_num

/-- A test bit converted to a float and used as a factor selects between the other factor and `0` — for every
    extended real, since `0 · x = 0` also at the infinities. -/
theorem bit_factor (b : BitVec 1) (x : EReal) :
    (FloatOps.uitofp (F := Ideal) .bf16 b : EReal) * x = Scalar.select b x 0 := by
  rcases BitVec.eq_zero_or_eq_one b with rfl | rfl
  · show (((0#1 : BitVec 1).toNat : ℝ) : EReal) * x = Scalar.select 0#1 x 0
    rw [select_zero]
    have : ((0#1 : BitVec 1).toNat : ℝ) = 0 := by norm_num
    rw [this, EReal.coe_zero, zero_mul]
  · show (((1#1 : BitVec 1).toNat : ℝ) : EReal) * x = Scalar.select 1#1 x 0
    rw [select_one]
    have : ((1#1 : BitVec 1).toNat : ℝ) = 1 := by norm_num
    rw [this, EReal.coe_one, one_mul]

/-! ## The one-hot sum -/

/-- A sum against a one-hot row of 1024 entries keeps the hot entry's term only. -/
theorem onehot_sum (r : Fin 1024) (v : EReal) (f : Fin 1024 → EReal) :
    ∑ n : Fin 1024, ((if n = r then (1 : EReal) else 0) * v) * f n = v * f r := by
  rw [Finset.sum_eq_single r]
  · rw [if_pos rfl, one_mul]
  · intro n _ hn
    rw [if_neg hn, zero_mul, zero_mul]
  · intro h; exact absurd (Finset.mem_univ r) h

/-- THE LAW: the product of the table with the label's one-hot row, weighted by the label's test bit, is the select
    between the label's row and `0`. -/
theorem onehot_row (s : BitVec 32) (f : Fin 1024 → EReal) :
    ∑ n : Fin 1024, ((FloatOps.sitofp (F := Ideal) .f32 ((IntOp.cmpi .eq (BitVec.ofNat 32 n.val) (clipped s)).setWidth 32) : EReal)
        * (FloatOps.uitofp (F := Ideal) .bf16 (inTable s) : EReal)) * f n
      = Scalar.select (inTable s) (f (rowOf s)) 0 := by
  have h : ∀ n : Fin 1024, (FloatOps.sitofp (F := Ideal) .f32 ((IntOp.cmpi .eq (BitVec.ofNat 32 n.val) (clipped s)).setWidth 32) : EReal)
      = if n = rowOf s then 1 else 0 := fun n => by
    rw [cmpi_eq_clipped]; exact sitofp_widened_bit _
  simp only [h]
  rw [onehot_sum, bit_factor]

end Cert.Lookup

end
-- ==== Proof.KernelBlock.lean ====
/-
  What the kernel body stores, read at one element.

  The body loads a tile of 4096 clipped labels `x1` (a column), the tile's 4096 test bits already converted to floats
  `x2` (a column), and one image's table `x0` of 1024 rows by 128 channels. It compares a row counter `0 … 1023` laid
  along the second axis with the label column broadcast along it, converts the equality bit to a float, multiplies by
  the broadcast test column, and multiplies the resulting 4096 × 1024 matrix with the table on the matrix unit into a zero
  accumulator. At the extended reals the matrix product is the plain sum over the contracted row index, so the stored
  element `(p, c)` is
      ∑ n < 1024, (float [n = x1 p] · x2 p) · x0 n c .
  This module only reads the layout operations (the unit axis of the blocks, the column broadcasts, the counter) and the
  contraction's index maps; what the sum is equal to is the business of the one-hot law.
-/
import proofs.«412168_j48447231099243_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## A column broadcast along a new second axis -/

/-- An `[a, 1]` column broadcast to `[a, b]` reads, at `(p, n)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (n : Fin b) :
    broadcastTo ⟨2, ![a, b]⟩ v h (ix2 p n) = v (ix2 p (0 : Fin 1)) := by
  refine broadcastTo_apply v h (ix2 p n) (ix2 p (0 : Fin 1)) fun ax => ?_
  match ax with
  | ⟨0, _⟩ =>
    show p.val = if a = 1 then 0 else p.val
    split
    · have := p.isLt; omega
    · rfl
  | ⟨1, _⟩ => rfl

/-! ## The contraction's index maps, axis by axis

The product contracts the second axis of the 4096 × 1024 matrix with the first axis of the 1024 × 128 table; the result's
row is the matrix's row and its column the table's column. -/

theorem lhs_row (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide),
    dif_pos (show (0 : Fin S4096x1024.rank) ∈ dot_S4096x1024_S1024x128_S4096x128_1_0_0_1_n_n.lhsNonContracting by decide)]
  rfl

theorem lhs_contracted (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q

theorem rhs_contracted (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q

theorem rhs_col (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide),
    dif_pos (show (1 : Fin S1024x128.rank) ∈ dot_S4096x1024_S1024x128_S4096x128_1_0_0_1_n_n.rhsNonContracting by decide)]
  rfl

/-! ## The stored element -/

/-- The one-hot factor of the matrix at `(p, n)`: the float of the bit `[n = x1 p]`, times the test column at `p`. -/
theorem weight_apply (x1 : Vec Ideal S1x4096x1 .i32) (x2 : Vec Ideal S1x4096x1 .bf16) (p : Fin 4096) (n : Fin 1024) :
    mulf (F := Ideal)
        (truncf .bf16 (sitofp .f32 (extui 32 (cmpi .eq (iota .tc S4096x1024 32 [1] iota_S4096x1024_d1_w32)
          (broadcastTo S4096x1024 (shapeCast S4096x1 x1 shapeCasts_S1x4096x1_S4096x1) broadcasts_S4096x1_S4096x1024)) natLt_1_32))
          bitsLt_bf16_f32)
        (broadcastTo S4096x1024 (shapeCast S4096x1 x2 shapeCasts_S1x4096x1_S4096x1) broadcasts_S4096x1_S4096x1024) (ix2 p n)
      = (FloatOps.sitofp (F := Ideal) .f32 ((IntOp.cmpi .eq (BitVec.ofNat 32 n.val) (x1 (ix3 (0 : Fin 1) p (0 : Fin 1)))).setWidth 32) : EReal)
        * (x2 (ix3 (0 : Fin 1) p (0 : Fin 1)) : EReal) := by
  have hidx : broadcastTo S4096x1024 (shapeCast S4096x1 x1 shapeCasts_S1x4096x1_S4096x1) broadcasts_S4096x1_S4096x1024 (ix2 p n)
      = x1 (ix3 (0 : Fin 1) p (0 : Fin 1)) := by
    rw [broadcastTo_col_apply, shapeCast_1ab_ab_apply]
  have hval : broadcastTo S4096x1024 (shapeCast S4096x1 x2 shapeCasts_S1x4096x1_S4096x1) broadcasts_S4096x1_S4096x1024 (ix2 p n)
      = x2 (ix3 (0 : Fin 1) p (0 : Fin 1)) := by
    rw [broadcastTo_col_apply, shapeCast_1ab_ab_apply]
  have hcount : iota .tc S4096x1024 32 [1] iota_S4096x1024_d1_w32 (ix2 p n) = BitVec.ofNat 32 n.val :=
    iota_single_apply .tc S4096x1024 32 1 iota_S4096x1024_d1_w32 (ix2 p n)
  show (FloatOps.sitofp (F := Ideal) .f32 ((IntOp.cmpi .eq (iota .tc S4096x1024 32 [1] iota_S4096x1024_d1_w32 (ix2 p n))
      (broadcastTo S4096x1024 (shapeCast S4096x1 x1 shapeCasts_S1x4096x1_S4096x1) broadcasts_S4096x1_S4096x1024 (ix2 p n))).setWidth 32) : EReal)
      * (broadcastTo S4096x1024 (shapeCast S4096x1 x2 shapeCasts_S1x4096x1_S4096x1) broadcasts_S4096x1_S4096x1024 (ix2 p n) : EReal) = _
  rw [hidx, hval, hcount]

/-- THE STORED ELEMENT `(p, c)` of the tile: the sum over the table's rows of the one-hot factor times the table. -/
theorem pay_apply (x1 : Vec Ideal S1x4096x1 .i32) (x2 : Vec Ideal S1x4096x1 .bf16) (x0 : Vec Ideal S1x1024x128 .bf16)
    (p : Fin 4096) (c : Fin 128) :
    k0_pay1 (F := Ideal) x1 x2 x0 (ix3 (0 : Fin 1) p c)
      = ∑ n : Fin 1024, ((FloatOps.sitofp (F := Ideal) .f32 ((IntOp.cmpi .eq (BitVec.ofNat 32 n.val) (x1 (ix3 (0 : Fin 1) p (0 : Fin 1)))).setWidth 32) : EReal)
          * (x2 (ix3 (0 : Fin 1) p (0 : Fin 1)) : EReal)) * (x0 (ix3 (0 : Fin 1) n c) : EReal) := by
  unfold k0_pay1
  rw [shapeCast_ab_1ab_apply]
  simp only [matmul]
  rw [Ideal.matmul_constant_zero_apply,
    ← Equiv.sum_comp (contrEquiv1 dot_S4096x1024_S1024x128_S4096x128_1_0_0_1_n_n 1024 rfl rfl).symm]
  refine Finset.sum_congr rfl fun n _ => ?_
  have hk := contrEquiv1_symm_val dot_S4096x1024_S1024x128_S4096x128_1_0_0_1_n_n 1024 rfl rfl n
  have el : dot_S4096x1024_S1024x128_S4096x128_1_0_0_1_n_n.lhsIdx (ix2 p c)
      ((contrEquiv1 dot_S4096x1024_S1024x128_S4096x128_1_0_0_1_n_n 1024 rfl rfl).symm n) = ix2 p n := funext fun a => Fin.ext (by
    match a with
    | ⟨0, _⟩ => exact lhs_row _ _
    | ⟨1, _⟩ => exact (lhs_contracted _ _).trans hk)
  have er : dot_S4096x1024_S1024x128_S4096x128_1_0_0_1_n_n.rhsIdx (ix2 p c)
      ((contrEquiv1 dot_S4096x1024_S1024x128_S4096x128_1_0_0_1_n_n 1024 rfl rfl).symm n) = ix2 n c := funext fun a => Fin.ext (by
    match a with
    | ⟨0, _⟩ => exact (rhs_contracted _ _).trans hk
    | ⟨1, _⟩ => exact rhs_col _ _)
  rw [el, er, weight_apply, shapeCast_1ab_ab_apply]

end Cert.KernelIdeal.Block

end
-- ==== Proof.KernelInputs.lean ====
/-
  The three arrays the kernel's region is launched on, read at an index as functions of the two argument arrays.

  Before the region the program reshapes the label image `[8, 512, 512, 1]` to `[8, 512, 512]`, subtracts one, tests the
  result against `[0, 1024)`, clips it into that range, and lays both the clipped labels and the test bits out with each
  image's pixels in one row-major axis, `[8, 262144, 1]`; the bits are converted to floats. The table is converted to a
  narrower float format, which changes nothing at the extended reals. So pixel number `q` of image `b` holds the clipped
  label, respectively the test bit, of pixel `(q / 512, q % 512)`.
-/
import proofs.«412168_j48447231099243_1_alg».proof.Proof.Gen.KernelIdeal.Frame
import proofs.«412168_j48447231099243_1_alg».proof.Proof.Lookup
import Idealize.ShloMosaic.Lib.StableHlo.Run
import Idealize.ShloMosaic.Lib.Pipeline.Value
import Idealize.ShloMosaic.Lib.ValueIdx

noncomputable section

namespace Cert.KernelIdeal.Inputs

open Cert.KernelIdeal Cert.KernelIdeal.Gen Cert.Lookup Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The label image as launched. -/
abbrev slic (c : Dev nD) : IVec S8x512x512x1 32 := m ((c : Thread nD τ).loc main_arg1)
/-- The feature tables as launched. -/
abbrev feat (c : Dev nD) : FVec Ideal S8x1024x128 .f32 := m ((c : Thread nD τ).loc main_arg0)

/-- The pixel of image `i 0` that flat position `i 1` names, as an index of the label image. -/
abbrev pixel (i : S8x262144x1.Idx) : S8x512x512x1.Idx := ix4 (i 0) (pixRow (i 1)) (pixCol (i 1)) (0 : Fin 1)

/-- The zero-based labels, `[8, 512, 512]`, read at a pixel. -/
theorem zeroBased_apply (c : Dev nD) (b : Fin 8) (h w : Fin 512) :
    subi (shapeCast S8x512x512 (slic m c) shapeCasts_S8x512x512x1_S8x512x512)
        (broadcastInDim S8x512x512 ![] bcast_S_S8x512x512 (constantI S_ 32 1#32)) (ix3 b h w)
      = zeroBased (slic m c (ix4 b h w (0 : Fin 1))) := by
  show IntOp.subi (shapeCast S8x512x512 (slic m c) shapeCasts_S8x512x512x1_S8x512x512 (ix3 b h w)) 1#32 = _
  rw [shapeCast_apply (slic m c) shapeCasts_S8x512x512x1_S8x512x512 (ix3 b h w) (ix4 b h w (0 : Fin 1)) (by
    rw [Shape.rowMajor_val_four, Shape.rowMajor_val_three]
    show ((b.val * 512 + h.val) * 512 + w.val) * 1 + 0 = (b.val * 512 + h.val) * 512 + w.val
    omega)]
  rfl

/-- Flat position `q` is row-major position `(q / 512, q % 512)`. -/
theorem flat_rowMajor (i : S8x262144x1.Idx) :
    (S8x512x512.rowMajor (ix3 (i 0) (pixRow (i 1)) (pixCol (i 1)))).val = (S8x262144x1.rowMajor i).val := by
  rw [Shape.rowMajor_val_three, Shape.rowMajor_val_three]
  have h2 : (i 2).val = 0 := by have h : (i 2).val < 1 := (i 2).isLt; omega
  show ((i 0).val * 512 + (i 1).val / 512) * 512 + (i 1).val % 512 = ((i 0).val * 262144 + (i 1).val) * 1 + (i 2).val
  omega

/-- WINDOW 1's ARRAY: the clipped label of the pixel. -/
theorem labels_apply (c : Dev nD) (i : S8x262144x1.Idx) :
    (V m c main_v9 : S8x262144x1.Idx → BitVec 32) i = clipped (slic m c (pixel i)) := by
  have e : (V m c main_v9 : S8x262144x1.Idx → BitVec 32)
      = shapeCast S8x262144x1
          (minsi (broadcastInDim S8x512x512 ![] bcast_S_S8x512x512 (constantI S_ 32 1023#32))
            (maxsi (broadcastInDim S8x512x512 ![] bcast_S_S8x512x512 (constantI S_ 32 0#32))
              (subi (shapeCast S8x512x512 (slic m c) shapeCasts_S8x512x512x1_S8x512x512)
                (broadcastInDim S8x512x512 ![] bcast_S_S8x512x512 (constantI S_ 32 1#32)))))
          shapeCasts_S8x512x512_S8x262144x1 := by
    dsimp only [Gen.V, Gen.V0]
    simp only [Gen.hostOps0, Gen.hostOps0_1, Gen.hostOps0_2, List.flatten_cons, List.flatten_nil, List.append_nil, List.cons_append,
      List.nil_append]
    after_results
    simp only [TRef.ofBuf, TRef.toBuf, cast_eq]
    rfl
  rw [e, shapeCast_apply _ shapeCasts_S8x512x512_S8x262144x1 i (ix3 (i 0) (pixRow (i 1)) (pixCol (i 1))) (flat_rowMajor i)]
  show IntOp.minsi 1023#32 (IntOp.maxsi 0#32 (subi (shapeCast S8x512x512 (slic m c) shapeCasts_S8x512x512x1_S8x512x512)
    (broadcastInDim S8x512x512 ![] bcast_S_S8x512x512 (constantI S_ 32 1#32)) (ix3 (i 0) (pixRow (i 1)) (pixCol (i 1))))) = _
  exact congrArg (fun z => IntOp.minsi 1023#32 (IntOp.maxsi 0#32 z)) (zeroBased_apply m c (i 0) (pixRow (i 1)) (pixCol (i 1)))

/-- WINDOW 2's ARRAY: the pixel's test bit as a float. -/
theorem bits_apply (c : Dev nD) (i : S8x262144x1.Idx) :
    (V m c main_v11 : S8x262144x1.Idx → Ideal .bf16) i = FloatOps.uitofp (F := Ideal) .bf16 (inTable (slic m c (pixel i))) := by
  have e : (V m c main_v11 : S8x262144x1.Idx → Ideal .bf16)
      = uitofp (F := Ideal) .bf16 (shapeCast S8x262144x1
          (andi
            (cmpi .sge (subi (shapeCast S8x512x512 (slic m c) shapeCasts_S8x512x512x1_S8x512x512)
                (broadcastInDim S8x512x512 ![] bcast_S_S8x512x512 (constantI S_ 32 1#32)))
              (broadcastInDim S8x512x512 ![] bcast_S_S8x512x512 (constantI S_ 32 0#32)))
            (cmpi .slt (subi (shapeCast S8x512x512 (slic m c) shapeCasts_S8x512x512x1_S8x512x512)
                (broadcastInDim S8x512x512 ![] bcast_S_S8x512x512 (constantI S_ 32 1#32)))
              (broadcastInDim S8x512x512 ![] bcast_S_S8x512x512 (constantI S_ 32 1024#32))))
          shapeCasts_S8x512x512_S8x262144x1) := by
    dsimp only [Gen.V, Gen.V0]
    simp only [Gen.hostOps0, Gen.hostOps0_1, Gen.hostOps0_2, List.flatten_cons, List.flatten_nil, List.append_nil, List.cons_append,
      List.nil_append]
    after_results
    rfl
  rw [e]
  show FloatOps.uitofp (F := Ideal) .bf16 (shapeCast S8x262144x1 _ shapeCasts_S8x512x512_S8x262144x1 i) = _
  rw [shapeCast_apply _ shapeCasts_S8x512x512_S8x262144x1 i (ix3 (i 0) (pixRow (i 1)) (pixCol (i 1))) (flat_rowMajor i)]
  show FloatOps.uitofp (F := Ideal) .bf16 (IntOp.andi
    (IntOp.cmpi .sge (subi (shapeCast S8x512x512 (slic m c) shapeCasts_S8x512x512x1_S8x512x512)
      (broadcastInDim S8x512x512 ![] bcast_S_S8x512x512 (constantI S_ 32 1#32)) (ix3 (i 0) (pixRow (i 1)) (pixCol (i 1)))) 0#32)
    (IntOp.cmpi .slt (subi (shapeCast S8x512x512 (slic m c) shapeCasts_S8x512x512x1_S8x512x512)
      (broadcastInDim S8x512x512 ![] bcast_S_S8x512x512 (constantI S_ 32 1#32)) (ix3 (i 0) (pixRow (i 1)) (pixCol (i 1)))) 1024#32)) = _
  exact congrArg (fun z => FloatOps.uitofp (F := Ideal) .bf16 (IntOp.andi (IntOp.cmpi .sge z 0#32) (IntOp.cmpi .slt z 1024#32)))
    (zeroBased_apply m c (i 0) (pixRow (i 1)) (pixCol (i 1)))

/-- WINDOW 0's ARRAY: the table itself (a change of float format is the identity on the extended reals). -/
theorem table_apply (c : Dev nD) (i : S8x1024x128.Idx) :
    ((V m c main_v12 : S8x1024x128.Idx → Ideal .bf16) i : EReal) = (feat m c i : EReal) := by
  have e : (V m c main_v12 : S8x1024x128.Idx → Ideal .bf16) = truncf .bf16 (feat m c) bitsLt_bf16_f32 := by
    dsimp only [Gen.V, Gen.V0]
    simp only [Gen.hostOps0, Gen.hostOps0_1, Gen.hostOps0_2, List.flatten_cons, List.flatten_nil, List.append_nil, List.cons_append,
      List.nil_append]
    after_results
  rw [e]
  rfl

end Cert.KernelIdeal.Inputs

end
-- ==== Proof.KernelGrid.lean ====
/-
  The grid of the kernel's region: 8 × 64 points, point `t` being image `t / 64`, tile `t % 64`.

  The facts about the printed index maps that the value proof uses, each decided once over the 512 points: the table's
  block follows the output's image and sits at the origin of its other two axes; the label tile and the bit tile follow
  the output's image and tile; and the output's block index at point `t` is `(t / 64, t % 64, 0)`, so that every
  (image, tile) pair is the block index of the point `image · 64 + tile`.
-/
import proofs.«412168_j48447231099243_1_alg».proof.Proof.Gen.KernelIdeal.Points

noncomputable section

namespace Cert.KernelIdeal.Grid

open Cert.KernelIdeal Cert.KernelIdeal.Gen Idealize.ShloMosaic Idealize.SL.Sem

/-- The input windows' block indices against the output's, and the output's ranges. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (0 : Fin 3) ≤ 7 ∧ win0_3.index t (1 : Fin 3) ≤ 63 ∧ win0_3.index t (2 : Fin 3) = 0 :=
  (by decide +kernel : ∀ t : Fin grid0.N, _)

/-- The output's block index in closed form. -/
theorem out_index : ∀ t : Fin cfg0.N,
    win0_3.index t (0 : Fin 3) = t.val / 64 ∧ win0_3.index t (1 : Fin 3) = t.val % 64 ∧ win0_3.index t (2 : Fin 3) = 0 :=
  (by decide +kernel : ∀ t : Fin grid0.N, _)

/-- The grid has 512 points. -/
theorem npoints : cfg0.N = 512 := by decide

/-- Every (image, tile) pair is some point's block index: the point `image · 64 + tile`. -/
theorem idx_onto (q0 : Fin 8) (q1 : Fin 64) : ∃ t : Fin cfg0.N,
    win0_3.index t (0 : Fin 3) = q0.val ∧ win0_3.index t (1 : Fin 3) = q1.val ∧ win0_3.index t (2 : Fin 3) = 0 := by
  have h0 := q0.isLt
  have h1 := q1.isLt
  refine ⟨⟨q0.val * 64 + q1.val, by rw [npoints]; omega⟩, ?_⟩
  obtain ⟨e0, e1, e2⟩ := out_index ⟨q0.val * 64 + q1.val, by rw [npoints]; omega⟩
  refine ⟨e0.trans ?_, e1.trans ?_, e2⟩
  · show (q0.val * 64 + q1.val) / 64 = q0.val; omega
  · show (q0.val * 64 + q1.val) % 64 = q1.val; omega

end Cert.KernelIdeal.Grid

end
-- ==== Proof.KernelTile.lean ====
/-
  What one grid point writes back.

  Point `(b, k)` of the region reads image `b`'s whole table, tile `k` (4096 consecutive flat pixels) of image `b`'s clipped
  labels and test bits, and stores tile `k` of image `b` of the output, `[8, 262144, 128]`. Every element it stores is the
  one-hot sum of the kernel body, which the one-hot law turns into the select between the labelled row and `0`; and that
  is the value of ONE function of the argument arrays, `flatLookup`, at the element's place in the whole output.
-/
import proofs.«412168_j48447231099243_1_alg».proof.Proof.Gen.KernelIdeal.Frame
import proofs.«412168_j48447231099243_1_alg».proof.Proof.Lookup
import proofs.«412168_j48447231099243_1_alg».proof.Proof.KernelBlock
import proofs.«412168_j48447231099243_1_alg».proof.Proof.KernelInputs
import proofs.«412168_j48447231099243_1_alg».proof.Proof.KernelGrid
import Idealize.ShloMosaic.Lib.Pipeline.Value

set_option maxRecDepth 16384

noncomputable section

namespace Cert.KernelIdeal.Tile

open Cert.KernelIdeal Cert.KernelIdeal.Gen Cert.Lookup Cert.KernelIdeal.Block Cert.KernelIdeal.Inputs Cert.KernelIdeal.Grid
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl

/-- The output array after the run: the lookup with each image's pixels flat. -/
abbrev result (c : Dev nD) : S8x262144x128.Idx → Elt Ideal .f32 := flatLookup (feat m c) (slic m c)

/-! ## One stored element -/

/-- If the label column holds the clipped label `s` at pixel `p`, the bit column the float of `s`'s test bit, and the
    table block the column `f` at channel `cc`, the stored element `(p, cc)` is the select between `f`'s labelled entry and
    `0`. -/
theorem tile_elem (x0 : Vec Ideal S1x1024x128 .bf16) (x1 : Vec Ideal S1x4096x1 .i32) (x2 : Vec Ideal S1x4096x1 .bf16)
    (s : BitVec 32) (f : Fin 1024 → EReal) (p : Fin 4096) (cc : Fin 128)
    (h1 : x1 (ix3 (0 : Fin 1) p (0 : Fin 1)) = clipped s)
    (h2 : (x2 (ix3 (0 : Fin 1) p (0 : Fin 1)) : EReal) = FloatOps.uitofp (F := Ideal) .bf16 (inTable s))
    (h0 : ∀ n : Fin 1024, (x0 (ix3 (0 : Fin 1) n cc) : EReal) = f n) :
    (k0_pay1 (F := Ideal) x1 x2 x0 (ix3 (0 : Fin 1) p cc) : EReal) = Scalar.select (inTable s) (f (rowOf s)) 0 := by
  rw [pay_apply, h1, h2]
  simp only [h0]
  exact onehot_row s f

/-! ## What a point writes back -/

/-- WHAT POINT `t` WRITES BACK is tile `t` of `flatLookup` of the argument arrays. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zero3]
  simp only [View.ld_unit_zero (S := S1x4096x1) zero3, View.ld_unit_zero (S := S1x1024x128) zero3]
  obtain ⟨a0, a1, a2, b0, b1, b2, c0, c1, c2, d0, d1, d2⟩ := idx_facts t
  funext j
  obtain ⟨u, p, cc, rfl⟩ : ∃ (u : Fin 1) (p : Fin 4096) (cc : Fin 128), j = ix3 u p cc := ⟨j 0, j 1, j 2, eq_ix3 j⟩
  obtain rfl : u = 0 := Subsingleton.elim _ _
  -- the element's place in the whole output
  have hp : p.val < 4096 := p.isLt
  have hcc : cc.val < 128 := cc.isLt
  show (k0_pay1 (F := Ideal) (iblk m c 1 t) (iblk m c 2 t) (iblk m c 0 t) (ix3 (0 : Fin 1) p cc) : EReal)
    = result m c (((cfg0.win 3).blk t).view.emb (ix3 (0 : Fin 1) p cc))
  refine (tile_elem (iblk m c 0 t) (iblk m c 1 t) (iblk m c 2 t)
    (slic m c (pixel (ix3 ((((cfg0.win 3).blk t).view.emb (ix3 (0 : Fin 1) p cc)) 0)
      ((((cfg0.win 3).blk t).view.emb (ix3 (0 : Fin 1) p cc)) 1) (0 : Fin 1))))
    (fun n => feat m c (ix3 ((((cfg0.win 3).blk t).view.emb (ix3 (0 : Fin 1) p cc)) 0) n
      ((((cfg0.win 3).blk t).view.emb (ix3 (0 : Fin 1) p cc)) 2)))
    p cc ?_ ?_ ?_).trans ?_
  · -- the label tile is read where the output's tile says
    show (V m c main_v9 : S8x262144x1.Idx → BitVec 32) (((cfg0.win 1).blk t).view.emb (ix3 (0 : Fin 1) p (0 : Fin 1))) = _
    rw [labels_apply]
    refine congrArg (fun i => clipped (slic m c (pixel i))) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 4096 + 1 * p.val = win0_3.index t (1 : Fin 3) * 4096 + 1 * p.val; omega
    | ⟨2, _⟩ => show win0_1.index t (2 : Fin 3) * 1 + 1 * 0 = 0; omega
  · -- so is the bit tile
    show ((V m c main_v11 : S8x262144x1.Idx → Ideal .bf16) (((cfg0.win 2).blk t).view.emb (ix3 (0 : Fin 1) p (0 : Fin 1))) : EReal) = _
    rw [bits_apply]
    refine congrArg (fun i => (FloatOps.uitofp (F := Ideal) .bf16 (inTable (slic m c (pixel i))) : EReal)) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 4096 + 1 * p.val = win0_3.index t (1 : Fin 3) * 4096 + 1 * p.val; omega
    | ⟨2, _⟩ => show win0_2.index t (2 : Fin 3) * 1 + 1 * 0 = 0; omega
  · -- the table block is the output's image's table
    intro n
    have hn : n.val < 1024 := n.isLt
    show ((V m c main_v12 : S8x1024x128.Idx → Ideal .bf16) (((cfg0.win 0).blk t).view.emb (ix3 (0 : Fin 1) n cc)) : EReal) = _
    rw [table_apply]
    refine congrArg (fun i => (feat m c i : EReal)) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * n.val = n.val; omega
    | ⟨2, _⟩ => show win0_0.index t (2 : Fin 3) * 128 + 1 * cc.val = win0_3.index t (2 : Fin 3) * 128 + 1 * cc.val; omega
  · rfl

end Cert.KernelIdeal.Tile

end
-- ==== Proof.KernelCover.lean ====
/-
  From the tiles to the whole output array.

  The 512 tiles the points write back cover the output `[8, 262144, 128]`: element `(b, q, c)` lies in the tile of the
  point of image `b` and tile `q / 4096`. Each tile is a tile of `flatLookup` of the argument arrays, so after the run
  the output array IS `flatLookup` of the argument arrays.
-/
import proofs.«412168_j48447231099243_1_alg».proof.Proof.KernelTile

set_option maxRecDepth 16384

noncomputable section

namespace Cert.KernelIdeal.Cover

open Cert.KernelIdeal Cert.KernelIdeal.Gen Cert.Lookup Cert.KernelIdeal.Inputs Cert.KernelIdeal.Grid Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The cover -/

/-- An index of the output is in point `t`'s tile iff each coordinate is in the tile's range on its axis. -/
theorem mem_blk (t : Fin cfg0.N) (i : S8x262144x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v13).slice (win0_3.rect t)).set ↔ _
  rw [View.set_slice_whole, Rect.mem_set_unit]
  exact Iff.rfl

/-- Every element of the output lies in the tile of the point of its image and of its flat pixel's tile. -/
theorem cover (i : S8x262144x128.Idx) : ∃ t : Fin cfg0.N, (cfg0.win 3).flush t = true ∧ i ∈ ((cfg0.win 3).blk t).view.set := by
  have hi0 : (i 0).val < 8 := (i 0).isLt
  have hi1 : (i 1).val < 262144 := (i 1).isLt
  have hi2 : (i 2).val < 128 := (i 2).isLt
  obtain ⟨t, e0, e1, e2⟩ := idx_onto ⟨(i 0).val, hi0⟩ ⟨(i 1).val / 4096, by omega⟩
  have q0 : win0_3.index t (0 : Fin 3) = (i 0).val := e0
  have q1 : win0_3.index t (1 : Fin 3) = (i 1).val / 4096 := e1
  have q2 : win0_3.index t (2 : Fin 3) = 0 := e2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- THE OUTPUT ARRAY AFTER THE RUN is `flatLookup` of the argument arrays. -/
theorem final (c : Dev nD) : (dats m 0 c).arrAt 3 cfg0.N = result m c :=
  (dats m 0 c).arrAt_eq_of_cover 3 (result m c) (fun t _ => flushed_eq m c t) cover

end Cert.KernelIdeal.Cover

end
-- ==== Proof.KernelRun.lean ====
/-
  The kernel program's result.

  After the region the program reshapes the region's output `[8, 262144, 128]` to `[8, 512, 512, 128]`: result element
  `(b, h, w, c)` is the output's element `(b, h · 512 + w, c)`. The output is `flatLookup` of the argument arrays, which at
  flat pixel `h · 512 + w` reads the lookup at pixel `(h, w)`. So the result is `lookup` of the argument arrays, and the
  run ends with it in the result buffer and with the arguments unchanged.
-/
import proofs.«412168_j48447231099243_1_alg».proof.Proof.KernelCover
import Idealize.ShloMosaic.Lib.StableHlo.Run
import Idealize.ShloMosaic.Lib.Pipeline.Value
import Idealize.ShloMosaic.Lib.ValueIdx

set_option maxRecDepth 16384

noncomputable section

namespace Cert.KernelIdeal.Run

open Cert.KernelIdeal Cert.KernelIdeal.Gen Cert.Lookup Cert.KernelIdeal.Inputs Cert.KernelIdeal.Tile Cert.KernelIdeal.Cover
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The flat pixel of pixel `(h, w)`. -/
def flatPix (h w : Fin 512) : Fin 262144 := ⟨h.val * 512 + w.val, by have := h.isLt; have := w.isLt; omega⟩

theorem pixRow_flatPix (h w : Fin 512) : pixRow (flatPix h w) = h :=
  Fin.ext (by show (h.val * 512 + w.val) / 512 = h.val; have := w.isLt; omega)

theorem pixCol_flatPix (h w : Fin 512) : pixCol (flatPix h w) = w :=
  Fin.ext (by show (h.val * 512 + w.val) % 512 = w.val; have := w.isLt; omega)

/-- The flat lookup read where the final reshape reads it is the lookup. -/
theorem unflatten (feat : FVec Ideal Table .f32) (slic : IVec Pixels 32) (b : Fin 8) (h w : Fin 512) (cc : Fin 128) :
    flatLookup feat slic (ix3 b (flatPix h w) cc) = lookup feat slic (ix4 b h w cc) := by
  show lookup feat slic (ix4 b (pixRow (flatPix h w)) (pixCol (flatPix h w)) cc) = _
  rw [pixRow_flatPix, pixCol_flatPix]

/-- THE RESULT BUFFER after the lines that follow the region: the lookup. -/
theorem tail_result (c : Dev nD) :
    Pipeline.afterTail₀ cfgs (dats m) 0 (V0 m) [hostOps1] c main_v14 = lookup (feat m c) (slic m c) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v13)
      = result m c := (Pipeline.withArrays_arr spec0 launch0.win.arr_inj c _ _ 3).trans (final m c)
  rw [hA]
  funext i
  show shapeCast S8x512x512x128 (result m c) shapeCasts_S8x262144x128_S8x512x512x128 i = _
  obtain ⟨b, h, w, cc, rfl⟩ : ∃ (b : Fin 8) (h w : Fin 512) (cc : Fin 128), i = ix4 b h w cc := ⟨i 0, i 1, i 2, i 3, eq_ix4 i⟩
  rw [shapeCast_apply (result m c) shapeCasts_S8x262144x128_S8x512x512x128 (ix4 b h w cc) (ix3 b (flatPix h w) cc) (by
    rw [Shape.rowMajor_val_three, Shape.rowMajor_val_four]
    show (b.val * 262144 + (h.val * 512 + w.val)) * 128 + cc.val = ((b.val * 512 + h.val) * 512 + w.val) * 128 + cc.val
    omega)]
  exact unflatten (feat m c) (slic m c) b h w cc

/-- THE RUN: every weakly fair execution of the kernel program ends with `lookup` of the argument arrays in the result
    buffer, and the argument arrays unchanged. -/
theorem run : θ_run defs (onTc (τ := τ) (main (F := Ideal))) ⟨m, fun _ => 0, ρ⟩ (fun r => ∀ c : Dev nD,
      r.2.mem ((c.tc : Thread nD τ).loc main_v14) = lookup (feat m c) (slic m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.LibGatherPair.lean ====
/-
  A gather by a PAIR of start coordinates, read at an index.

  `x[i, j]` of a table `x : [B, N, C]` at two integer arrays `i, j : [P, H, W]` of coordinates on the first two axes —
  what jnp's `table[b, idx]` lowers to — is a `stablehlo.gather` over start indices `[P, H, W, 2]` (the pair `(i, j)` laid
  along a last axis of extent two, the index vector's axis) with the operand's first two axes collapsed and start-indexed,
  one offset axis (the result's last, reading whole rows of `C`), slice sizes `[1, 1, C]` and no batching axes. Result element
  `(p, h, w, c)` is the table at row `(i[p,h,w], j[p,h,w])`, each coordinate read as a SIGNED integer and clamped into its
  axis (StableHLO clamps every start index so that the slice fits), and at channel `c`.
-/
import Idealize.ShloMosaic.PureOps
import Idealize.ShloMosaic.Lib.ValueIdx

namespace GatherPair

open Idealize.ShloMosaic Idealize.ShloMosaic.ValueIdx

variable {α : Type}

/-- Those dimension numbers for a table `[B, N, C]`, start indices `[P, H, W, 2]` and a result `[P, H, W, C]`; their
    conditions `wf` are decided on a program's literal shapes. -/
abbrev pairDims (B N C P H W : Nat)
    (wf : GatherDims.WF ⟨3, ![B, N, C]⟩ ⟨4, ![P, H, W, 2]⟩ ⟨4, ![P, H, W, C]⟩ [3] [0, 1] [] [0, 1] [] 3 ![1, 1, C]) :
    GatherDims ⟨3, ![B, N, C]⟩ ⟨4, ![P, H, W, 2]⟩ ⟨4, ![P, H, W, C]⟩ where
  offsetDims := [3]
  collapsedSliceDims := [0, 1]
  operandBatchingDims := []
  startIndicesBatchingDims := []
  startIndexMap := [0, 1]
  indexVectorDim := 3
  sliceSizes := ![1, 1, C]
  wf := wf

/-- The start-indices index `[p, h, w, k]` of result index `(p, h, w, c)`: component `k` of its pair. -/
abbrev pairIdx {P H W C : Nat} (y : (⟨4, ![P, H, W, C]⟩ : Shape).Idx) (k : Fin 2) : (⟨4, ![P, H, W, 2]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => k

/-- THE GATHER READ AT `(p, h, w, c)`: the table at the pair's two coordinates, each read signed and clamped into its
    axis, and at channel `c`. -/
theorem gather_pair_apply {B N C P H W w : Nat} (hB : 0 < B) (hN : 0 < N)
    (wf : GatherDims.WF ⟨3, ![B, N, C]⟩ ⟨4, ![P, H, W, 2]⟩ ⟨4, ![P, H, W, C]⟩ [3] [0, 1] [] [0, 1] [] 3 ![1, 1, C])
    (x : (⟨3, ![B, N, C]⟩ : Shape).Idx → α) (idx : IVec ⟨4, ![P, H, W, 2]⟩ w) (y : (⟨4, ![P, H, W, C]⟩ : Shape).Idx) :
    Host.gather (pairDims B N C P H W wf) x idx y
      = x (ix3 (⟨min (idx (pairIdx y 0)).toInt.toNat (B - 1), by omega⟩ : Fin B)
          (⟨min (idx (pairIdx y 1)).toInt.toNat (N - 1), by omega⟩ : Fin N) (⟨(y 3).val, (y 3).isLt⟩ : Fin C)) := by
  unfold Host.gather
  congr 1
  funext a
  refine Fin.ext ?_
  match a with
  | ⟨0, _⟩ =>
    show (pairDims B N C P H W wf).start y idx 0 + (pairDims B N C P H W wf).batchCoord y 0
      + (pairDims B N C P H W wf).offCoord y 0 = _
    rw [GatherDims.batchCoord_eq_zero _ _ _ List.not_mem_nil,
      GatherDims.offCoord_eq_zero _ _ _ (fun h => ((GatherDims.mem_sKept _ _).mp h).1 (show (0 : Fin 3) ∈ ([0, 1] : List (Fin 3)) by decide))]
    simp only [Nat.add_zero]
    unfold GatherDims.start
    rw [dif_pos (show (0 : Fin 3) ∈ (pairDims B N C P H W wf).startIndexMap from (show (0 : Fin 3) ∈ ([0, 1] : List (Fin 3)) by decide))]
    have hsi : (pairDims B N C P H W wf).siIdx y ⟨List.idxOf (0 : Fin 3) (pairDims B N C P H W wf).startIndexMap,
        List.idxOf_lt_length_iff.2 (show (0 : Fin 3) ∈ ([0, 1] : List (Fin 3)) by decide)⟩ = pairIdx y 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (pairDims B N C P H W wf).start y idx 1 + (pairDims B N C P H W wf).batchCoord y 1
      + (pairDims B N C P H W wf).offCoord y 1 = _
    rw [GatherDims.batchCoord_eq_zero _ _ _ List.not_mem_nil,
      GatherDims.offCoord_eq_zero _ _ _ (fun h => ((GatherDims.mem_sKept _ _).mp h).1 (show (1 : Fin 3) ∈ ([0, 1] : List (Fin 3)) by decide))]
    simp only [Nat.add_zero]
    unfold GatherDims.start
    rw [dif_pos (show (1 : Fin 3) ∈ (pairDims B N C P H W wf).startIndexMap from (show (1 : Fin 3) ∈ ([0, 1] : List (Fin 3)) by decide))]
    have hsi : (pairDims B N C P H W wf).siIdx y ⟨List.idxOf (1 : Fin 3) (pairDims B N C P H W wf).startIndexMap,
        List.idxOf_lt_length_iff.2 (show (1 : Fin 3) ∈ ([0, 1] : List (Fin 3)) by decide)⟩ = pairIdx y 1 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (pairDims B N C P H W wf).start y idx 2 + (pairDims B N C P H W wf).batchCoord y 2
      + (pairDims B N C P H W wf).offCoord y 2 = (y 3).val
    rw [GatherDims.batchCoord_eq_zero _ _ _ List.not_mem_nil]
    unfold GatherDims.start
    rw [dif_neg (show ¬ (2 : Fin 3) ∈ (pairDims B N C P H W wf).startIndexMap from (show ¬ (2 : Fin 3) ∈ ([0, 1] : List (Fin 3)) by decide))]
    unfold GatherDims.offCoord
    rw [dif_pos (show (2 : Fin 3) ∈ (pairDims B N C P H W wf).sKept from (GatherDims.mem_sKept _ _).mpr ⟨(show ¬ (2 : Fin 3) ∈ ([0, 1] : List (Fin 3)) by decide), List.not_mem_nil⟩)]
    simp only [Nat.zero_add, Nat.add_zero]
    rfl

end GatherPair
-- ==== Proof.RefValue.lean ====
/-
  What the reference computes, read at one element.

  The reference forms, for every pixel, the same zero-based label, test bit and clipped label as the other program. It
  then gathers from the table by a PAIR of coordinates: the image number (taken from a counter along the first axis and
  passed through jnp's wrap of negative indices, which leaves a number in `[0, 8)` alone) and the clipped label (passed
  through the same wrap, which leaves a clipped label alone since it is never negative). A gather clamps its start
  coordinates into the table; the image number is already a row of its axis, and the clamped clipped label is by
  definition the row the label names. Finally it selects, on the test bit, between the gathered channel and zero. That is
  `lookup`, element by element.
-/
import proofs.«412168_j48447231099243_1_alg».proof.Proof.RefRead
import proofs.«412168_j48447231099243_1_alg».proof.Proof.Lookup
import proofs.«412168_j48447231099243_1_alg».proof.Proof.LibGatherPair
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadPatched Cert.Lookup
open Idealize.ShloMosaic Idealize.ShloMosaic.ValueIdx

variable (x0 : (⟨S8x1024x128, .f32⟩ : BufTy).Contents (Elt Ideal)) (x1 : (⟨S8x512x512x1, .i32⟩ : BufTy).Contents (Elt Ideal))

/-! ## The label's three words, pixel by pixel -/

/-- The zero-based label of pixel `j`. -/
theorem zeroBased_stage (j : S8x512x512.Idx) :
    val_main_v2 (F := Ideal) x1 j = zeroBased (x1 (ix4 (j 0) (j 1) (j 2) (0 : Fin 1))) := by
  have e : idx_main_v0 j = ix4 (j 0) (j 1) (j 2) (0 : Fin 1) := funext fun a => Fin.ext (by
    have h0 : (j 0).val < 8 := (j 0).isLt
    have h1 : (j 1).val < 512 := (j 1).isLt
    have h2 : (j 2).val < 512 := (j 2).isLt
    match a with
    | ⟨0, _⟩ => show (((j 0).val * 512 + (j 1).val) * 512 + (j 2).val) / 262144 = (j 0).val; omega
    | ⟨1, _⟩ => show (((j 0).val * 512 + (j 1).val) * 512 + (j 2).val) / 512 % 512 = (j 1).val; omega
    | ⟨2, _⟩ => show (((j 0).val * 512 + (j 1).val) * 512 + (j 2).val) / 1 % 512 = (j 2).val; omega
    | ⟨3, _⟩ => rfl)
  rw [val_main_v2_apply, val_main_v0_apply, e]
  rfl

/-- The test bit of pixel `j`. -/
theorem inTable_stage (j : S8x512x512.Idx) :
    val_main_v7 (F := Ideal) x1 j = inTable (x1 (ix4 (j 0) (j 1) (j 2) (0 : Fin 1))) := by
  rw [val_main_v7_apply, val_main_v4_apply, val_main_v6_apply, zeroBased_stage]
  rfl

/-- The clipped label of pixel `j`. -/
theorem clipped_stage (j : S8x512x512.Idx) :
    val_main_v8 (F := Ideal) x1 j = clipped (x1 (ix4 (j 0) (j 1) (j 2) (0 : Fin 1))) := by
  rw [val_main_v8_apply, val_main_call0_v2_apply, zeroBased_stage]
  rfl

/-- The clipped label after the wrap of negative indices: unchanged. -/
theorem wrapped_stage (j : S8x512x512.Idx) :
    val_main_v20 (F := Ideal) x1 j = clipped (x1 (ix4 (j 0) (j 1) (j 2) (0 : Fin 1))) := by
  rw [val_main_v20_apply, val_main_v17_apply, val_main_v19_apply, clipped_stage]
  exact wrap_clipped _

/-- The image number after the wrap of negative indices: the counter itself. -/
theorem batch_stage (k : S8x1x1.Idx) : val_main_v15 (F := Ideal) k = BitVec.ofNat 32 (k 0).val := by
  rw [val_main_v15_apply, val_main_v12_apply, val_main_v14_apply, val_main_v10_apply, val_main_v9_apply]
  exact wrap_batch ⟨(k 0).val, (k 0).isLt⟩

/-! ## The pair of start coordinates -/

/-- The first coordinate of result element `y`'s pair: its image number. -/
theorem pair_fst (y : S8x512x512x128.Idx) :
    val_main_v24 (F := Ideal) x1 (GatherPair.pairIdx y 0) = BitVec.ofNat 32 (y 0).val := by
  unfold val_main_v24
  rw [concatenate_pair_apply_left (t := S8x512x512x2) (s₁ := S8x512x512x1) (s₂ := S8x512x512x1) (3 : Fin 4) _ _
    concatenates_S8x512x512x1_S8x512x512x1_S8x512x512x2_d3 (GatherPair.pairIdx y 0)
    (rfl : S8x512x512x1.rank = S8x512x512x2.rank) (ix4 (y 0) (y 1) (y 2) (0 : Fin 1))
    (fun b => by match b with | ⟨0, _⟩ => rfl | ⟨1, _⟩ => rfl | ⟨2, _⟩ => rfl | ⟨3, _⟩ => rfl)]
  rw [val_main_v22_apply, val_main_v21_apply, batch_stage]

/-- The second coordinate of result element `y`'s pair: its pixel's clipped label. -/
theorem pair_snd (y : S8x512x512x128.Idx) :
    val_main_v24 (F := Ideal) x1 (GatherPair.pairIdx y 1) = clipped (x1 (ix4 (y 0) (y 1) (y 2) (0 : Fin 1))) := by
  unfold val_main_v24
  rw [concatenate_pair_apply_right (t := S8x512x512x2) (s₁ := S8x512x512x1) (s₂ := S8x512x512x1) (3 : Fin 4) _ _
    concatenates_S8x512x512x1_S8x512x512x1_S8x512x512x2_d3 (GatherPair.pairIdx y 1)
    (rfl : S8x512x512x1.rank = S8x512x512x2.rank) (rfl : S8x512x512x1.rank = S8x512x512x2.rank) (ix4 (y 0) (y 1) (y 2) (0 : Fin 1))
    (fun b hb => by
      match b, hb with
      | ⟨0, _⟩, _ => rfl
      | ⟨1, _⟩, _ => rfl
      | ⟨2, _⟩, _ => rfl
      | ⟨3, _⟩, hb => exact absurd rfl hb) rfl]
  rw [val_main_v23_apply, wrapped_stage]
  rfl

/-! ## The gathered channel -/

/-- The gather at `y`: channel `y 3` of the row the pixel's label names, in the pixel's image's table. -/
theorem gathered_stage (y : S8x512x512x128.Idx) :
    val_main_v25 (F := Ideal) x0 x1 y
      = x0 (ix3 (y 0) (rowOf (x1 (ix4 (y 0) (y 1) (y 2) (0 : Fin 1)))) (y 3)) := by
  unfold val_main_v25
  have hd : gather_S8x1024x128_S8x512x512x2_S8x512x512x128_3_01_n_n_01_3_11128
      = GatherPair.pairDims 8 1024 128 8 512 512 Gen.gather_S8x1024x128_S8x512x512x2_S8x512x512x128_3_01_n_n_01_3_11128_wf := rfl
  rw [hd, GatherPair.gather_pair_apply (by decide) (by decide)]
  refine congrArg x0 (funext fun a => Fin.ext ?_)
  have h0 : (y 0).val < 8 := (y 0).isLt
  match a with
  | ⟨0, _⟩ =>
    show min (val_main_v24 (F := Ideal) x1 (GatherPair.pairIdx y 0)).toInt.toNat (8 - 1) = (y 0).val
    rw [pair_fst, StableHlo.Predicate.toInt_ofNat_small (y 0).val (by omega)]
    omega
  | ⟨1, _⟩ =>
    show min (val_main_v24 (F := Ideal) x1 (GatherPair.pairIdx y 1)).toInt.toNat (1024 - 1)
      = (rowOf (x1 (ix4 (y 0) (y 1) (y 2) (0 : Fin 1)))).val
    rw [pair_snd]
    rfl
  | ⟨2, _⟩ => rfl

/-! ## The result -/

/-- THE REFERENCE'S RESULT is `lookup` of the two argument arrays. -/
theorem reference_eq : val_main_v27 (F := Ideal) x0 x1 = lookup x0 x1 := by
  funext y
  rw [val_main_v27_apply, val_main_call1_v0_apply, val_main_v26_apply, inTable_stage, gathered_stage,
    val_main_call1_v1_apply, val_main_cst_apply, Ideal.ofBits_def, Ideal.ofBits_zero_f32]
  rfl

end Cert.ReferenceIdeal.RefValue

end
-- ==== Proof.lean ====
/-
  Both programs compute, for every pixel `(b, h, w)` and channel `c`, the entry `feat[b, row, c]` of the feature table
  at the row the pixel's one-based label names (`row = clip (label - 1)` into `[0, 1023]`), or `0` when `label - 1` lies
  outside `[0, 1024)`.

  The kernel program multiplies, tile by tile on the matrix unit, the one-hot rows `[n = row] · bit` with the table; on the
  extended reals `0 · x = 0` for every `x` and `1 · x = x`, so the sum over `n` is `bit · feat[b, row, c]`, the select
  (Proof/Lookup.lean). The tiles cover the flat output, which the program reshapes to the result (Proof/KernelTile.lean,
  Proof/KernelCover.lean, Proof/KernelRun.lean). The reference gathers the row by the pair (image, clipped label) and selects
  on the test bit (Proof/RefValue.lean). Both results are the one function `Cert.Lookup.lookup` of the argument arrays; no
  finiteness of the table is used.

  The three frames: the two kernel programs' by their generated frame, the reference's by its run with the result
  dropped. The idealization rewrote nothing, so `preserves` is trivial.
-/
import proofs.«412168_j48447231099243_1_alg».proof.Defs
import proofs.«412168_j48447231099243_1_alg».proof.Proof.Gen.Kernel
import proofs.«412168_j48447231099243_1_alg».proof.Proof.Gen.Kernel.Skeleton
import proofs.«412168_j48447231099243_1_alg».proof.Proof.Gen.Kernel.Launch
import proofs.«412168_j48447231099243_1_alg».proof.Proof.Gen.Kernel.Points
import proofs.«412168_j48447231099243_1_alg».proof.Proof.Gen.Kernel.Frame
import proofs.«412168_j48447231099243_1_alg».proof.Proof.Gen.KernelIdeal
import proofs.«412168_j48447231099243_1_alg».proof.Proof.Gen.KernelIdeal.Skeleton
import proofs.«412168_j48447231099243_1_alg».proof.Proof.Gen.KernelIdeal.Launch
import proofs.«412168_j48447231099243_1_alg».proof.Proof.Gen.KernelIdeal.Points
import proofs.«412168_j48447231099243_1_alg».proof.Proof.Gen.KernelIdeal.Frame
import proofs.«412168_j48447231099243_1_alg».proof.Proof.Gen.ReferenceIdeal
import proofs.«412168_j48447231099243_1_alg».proof.Proof.Gen.Pre_finite_inputs
import proofs.«412168_j48447231099243_1_alg».proof.Proof.KernelRun
import proofs.«412168_j48447231099243_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_reference : Cert.frame_ReferenceIdeal := fun m ρ _ =>
  (θ_run Cert.ReferenceIdeal.defs _ _).mono (fun _ h c => (h c).2) (Cert.ReferenceIdeal.RunPatched.run (F := Ideal) m ρ)

theorem preserves : Cert.preserves_Kernel_KernelIdeal := trivial

/-- From memories that agree on the arguments both programs end with `lookup` of the arguments in their result buffer. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RunPatched.run (F := Ideal) m' ρ')
  refine (Cert.ReferenceIdeal.ReadPatched.val_main_v27_eq (F := Ideal) _ _).trans ?_
  rw [Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
